-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x128x128x128 : Shape := ⟨5, ![1, 16, 128, 128, 128]⟩
abbrev S_ : Shape := ⟨0, ![]⟩

class Facts : Prop where
  bcast_S_S1x16x128x128x128 : S_.BroadcastsInDim S1x16x128x128x128 (![] : Fin 0 → Fin S1x16x128x128x128.rank)
  reducesTo_S1x16x128x128x128_S_d0_1_2_3_4 : S1x16x128x128x128.ReducesTo [0, 1, 2, 3, 4] S_
  h_S_ : 0 < S_.numel

variable [Facts]

def fn {F : FTy → Type} [FloatOps F] (main_arg0 : FVec F S1x16x128x128x128 .f32) : IVec S_ 1 :=
  let main_v0 : FVec F S1x16x128x128x128 .f32 := Host.absf main_arg0
  let main_cst : FVec F S_ .f32 := constant S_ .f32 0x7F800000#32
  let main_v1 : FVec F S1x16x128x128x128 .f32 := broadcastInDim S1x16x128x128x128 ![] bcast_S_S1x16x128x128x128 main_cst
  let main_v2 : IVec S1x16x128x128x128 1 := cmpf .olt main_v0 main_v1
  let main_c : IVec S_ 1 := constantI S_ 1 1#1
  let main_v3 : IVec S_ 1 := (fun x v => Host.reduce IntOp.andi x v reducesTo_S1x16x128x128x128_S_d0_1_2_3_4 h_S_) main_v2 main_c
  main_v3
-- ==== Kernel.lean ====
abbrev S1x16x128x128x128 : Shape := ⟨5, ![1, 16, 128, 128, 128]⟩
abbrev S1x96x128x128x128 : Shape := ⟨5, ![1, 96, 128, 128, 128]⟩
abbrev S1x1x128x128x128 : Shape := ⟨5, ![1, 1, 128, 128, 128]⟩
abbrev S1x2x128x128x128 : Shape := ⟨5, ![1, 2, 128, 128, 128]⟩
abbrev S128x128x128 : Shape := ⟨3, ![128, 128, 128]⟩
abbrev S128x128x1 : Shape := ⟨3, ![128, 128, 1]⟩
abbrev S1x1x128x128x1 : Shape := ⟨5, ![1, 1, 128, 128, 1]⟩
abbrev S128x1x128 : Shape := ⟨3, ![128, 1, 128]⟩
abbrev S1x1x128x1x128 : Shape := ⟨5, ![1, 1, 128, 1, 128]⟩
abbrev S1x1x127x128x128 : Shape := ⟨5, ![1, 1, 127, 128, 128]⟩
abbrev S127x128x128 : Shape := ⟨3, ![127, 128, 128]⟩
abbrev S1x128x128 : Shape := ⟨3, ![1, 128, 128]⟩
abbrev S1x1x1x128x128 : Shape := ⟨5, ![1, 1, 1, 128, 128]⟩
abbrev S1x6x16x128x128x128 : Shape := ⟨6, ![1, 6, 16, 128, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x16x128x128x128, .f32⟩
  | .hbm, ⟨1, _⟩ => ⟨S1x96x128x128x128, .f32⟩
  | .hbm, ⟨2, _⟩ => ⟨S1x6x16x128x128x128, .f32⟩
  | .local _ .vmem, ⟨0, _⟩ => ⟨S1x1x128x128x128, .f32⟩
  | .local _ .vmem, ⟨1, _⟩ => ⟨S1x1x128x128x128, .f32⟩
  | .local _ .vmem, ⟨2, _⟩ => ⟨S1x2x128x128x128, .f32⟩
  | .local _ .vmem, ⟨3, _⟩ => ⟨S1x2x128x128x128, .f32⟩
  | _, _ => ⟨S1x16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

abbrev stage0_0 : Fin 2 → Memref sig .tc .vmem S1x1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x128x128x128_S1x1x128x128x128_0_0_0_0_0 : ∀ a, (![0, 0, 0, 0, 0] : Fin 5 → Nat) a + S1x1x128x128x128.size a ≤ S1x1x128x128x128.size a
  h_S1x1x128x128x128 : 0 < S1x1x128x128x128.numel
  shapeCasts_S1x1x128x128x128_S128x128x128 : S1x1x128x128x128.ShapeCasts S128x128x128
  rotates_S128x128x128_d2 : S128x128x128.Rotates 2 none
  inb_S1x2x128x128x128_S1x1x128x128x128_0_0_0_0_0 : ∀ a, (![0, 0, 0, 0, 0] : Fin 5 → Nat) a + S1x1x128x128x128.size a ≤ S1x2x128x128x128.size a
  shapeCasts_S128x128x128_S1x1x128x128x128 : S128x128x128.ShapeCasts S1x1x128x128x128
  inb_S1x2x128x128x128_S1x1x128x128x1_0_0_0_0_127 : ∀ a, (![0, 0, 0, 0, 127] : Fin 5 → Nat) a + S1x1x128x128x1.size a ≤ S1x2x128x128x128.size a
  h_S1x1x128x128x1 : 0 < S1x1x128x128x1.numel
  shapeCasts_S1x1x128x128x1_S128x128x1 : S1x1x128x128x1.ShapeCasts S128x128x1
  shapeCasts_S128x128x1_S1x1x128x128x1 : S128x128x1.ShapeCasts S1x1x128x128x1
  inb_S1x2x128x128x128_S1x1x128x128x128_0_1_0_0_0 : ∀ a, (![0, 1, 0, 0, 0] : Fin 5 → Nat) a + S1x1x128x128x128.size a ≤ S1x2x128x128x128.size a
  inb_S1x2x128x128x128_S1x1x128x128x1_0_1_0_0_0 : ∀ a, (![0, 1, 0, 0, 0] : Fin 5 → Nat) a + S1x1x128x128x1.size a ≤ S1x2x128x128x128.size a
  rotates_S128x128x128_d1 : S128x128x128.Rotates 1 none
  inb_S1x2x128x128x128_S1x1x128x1x128_0_0_0_127_0 : ∀ a, (![0, 0, 0, 127, 0] : Fin 5 → Nat) a + S1x1x128x1x128.size a ≤ S1x2x128x128x128.size a
  h_S1x1x128x1x128 : 0 < S1x1x128x1x128.numel
  shapeCasts_S1x1x128x1x128_S128x1x128 : S1x1x128x1x128.ShapeCasts S128x1x128
  shapeCasts_S128x1x128_S1x1x128x1x128 : S128x1x128.ShapeCasts S1x1x128x1x128
  inb_S1x2x128x128x128_S1x1x128x1x128_0_1_0_0_0 : ∀ a, (![0, 1, 0, 0, 0] : Fin 5 → Nat) a + S1x1x128x1x128.size a ≤ S1x2x128x128x128.size a
  inb_S1x1x128x128x128_S1x1x127x128x128_0_0_1_0_0 : ∀ a, (![0, 0, 1, 0, 0] : Fin 5 → Nat) a + S1x1x127x128x128.size a ≤ S1x1x128x128x128.size a
  h_S1x1x127x128x128 : 0 < S1x1x127x128x128.numel
  shapeCasts_S1x1x127x128x128_S127x128x128 : S1x1x127x128x128.ShapeCasts S127x128x128
  inb_S1x2x128x128x128_S1x1x127x128x128_0_0_0_0_0 : ∀ a, (![0, 0, 0, 0, 0] : Fin 5 → Nat) a + S1x1x127x128x128.size a ≤ S1x2x128x128x128.size a
  shapeCasts_S127x128x128_S1x1x127x128x128 : S127x128x128.ShapeCasts S1x1x127x128x128
  inb_S1x2x128x128x128_S1x1x1x128x128_0_0_127_0_0 : ∀ a, (![0, 0, 127, 0, 0] : Fin 5 → Nat) a + S1x1x1x128x128.size a ≤ S1x2x128x128x128.size a
  h_S1x1x1x128x128 : 0 < S1x1x1x128x128.numel
  shapeCasts_S1x1x1x128x128_S1x128x128 : S1x1x1x128x128.ShapeCasts S1x128x128
  shapeCasts_S1x128x128_S1x1x1x128x128 : S1x128x128.ShapeCasts S1x1x1x128x128
  inb_S1x1x128x128x128_S1x1x127x128x128_0_0_0_0_0 : ∀ a, (![0, 0, 0, 0, 0] : Fin 5 → Nat) a + S1x1x127x128x128.size a ≤ S1x1x128x128x128.size a
  inb_S1x2x128x128x128_S1x1x127x128x128_0_1_1_0_0 : ∀ a, (![0, 1, 1, 0, 0] : Fin 5 → Nat) a + S1x1x127x128x128.size a ≤ S1x2x128x128x128.size a
  inb_S1x2x128x128x128_S1x1x1x128x128_0_1_0_0_0 : ∀ a, (![0, 1, 0, 0, 0] : Fin 5 → Nat) a + S1x1x1x128x128.size a ≤ S1x2x128x128x128.size a
  shapeCasts_S1x96x128x128x128_S1x6x16x128x128x128 : S1x96x128x128x128.ShapeCasts S1x6x16x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x128x128.size a ≤ S1x16x128x128x128.size a
  hwx0_0 : ∀ i : grid0.Coords, EltTy.bits .f32 = 32 ∨ (Rect.block (s := S1x16x128x128x128) S1x1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x128x128.size a ≤ S1x96x128x128x128.size a
  hwx0_1 : ∀ i : grid0.Coords, EltTy.bits .f32 = 32 ∨ (Rect.block (s := S1x96x128x128x128) S1x2x128x128x128.size (cc0_transform_1 i) (hinb0_1 i)).WholeWords (EltTy.packing .f32)

variable [Facts₀]

abbrev win0_0 : Pipeline.Window sig grid0 :=
  Pipeline.Window.ofSpec (Memref.whole main_arg0) S1x1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x128x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) | ⟨_ + 2, h⟩ => absurd h (Nat.not_lt.2 (Nat.le_add_left _ _))

class Facts : Prop extends Facts₀ where

variable [Facts]
-- ==== ReferenceIdeal.lean ====
abbrev S1x16x128x128x128 : Shape := ⟨5, ![1, 16, 128, 128, 128]⟩
abbrev S_ : Shape := ⟨0, ![]⟩
abbrev S1x16x130x130x130 : Shape := ⟨5, ![1, 16, 130, 130, 130]⟩
abbrev S1x16x1x128x128x128 : Shape := ⟨6, ![1, 16, 1, 128, 128, 128]⟩
abbrev S1x16x6x128x128x128 : Shape := ⟨6, ![1, 16, 6, 128, 128, 128]⟩
abbrev S1x96x128x128x128 : Shape := ⟨5, ![1, 96, 128, 128, 128]⟩
abbrev S1x6x16x128x128x128 : Shape := ⟨6, ![1, 6, 16, 128, 128, 128]⟩

abbrev nBuf : Space → Nat
  | .hbm => 19
  | .vmem => 0
  | .smem => 0
  | _ => 0

abbrev bufTy : (tb : Table) → Fin (tcTables nBuf tb) → BufTy
  | .hbm, ⟨0, _⟩ => ⟨S1x16x128x128x128, .f32⟩
  | .hbm, ⟨1, _⟩ => ⟨S_, .i32⟩
  | .hbm, ⟨2, _⟩ => ⟨S_, .f32⟩
  | .hbm, ⟨3, _⟩ => ⟨S1x16x130x130x130, .f32⟩
  | .hbm, ⟨4, _⟩ => ⟨S1x16x128x128x128, .f32⟩
  | .hbm, ⟨5, _⟩ => ⟨S1x16x128x128x128, .f32⟩
  | .hbm, ⟨6, _⟩ => ⟨S1x16x128x128x128, .f32⟩
  | .hbm, ⟨7, _⟩ => ⟨S1x16x128x128x128, .f32⟩
  | .hbm, ⟨8, _⟩ => ⟨S1x16x128x128x128, .f32⟩
  | .hbm, ⟨9, _⟩ => ⟨S1x16x128x128x128, .f32⟩
  | .hbm, ⟨10, _⟩ => ⟨S1x16x1x128x128x128, .f32⟩
  | .hbm, ⟨11, _⟩ => ⟨S1x16x1x128x128x128, .f32⟩
  | .hbm, ⟨12, _⟩ => ⟨S1x16x1x128x128x128, .f32⟩
  | .hbm, ⟨13, _⟩ => ⟨S1x16x1x128x128x128, .f32⟩
  | .hbm, ⟨14, _⟩ => ⟨S1x16x1x128x128x128, .f32⟩
  | .hbm, ⟨15, _⟩ => ⟨S1x16x1x128x128x128, .f32⟩
  | .hbm, ⟨16, _⟩ => ⟨S1x16x6x128x128x128, .f32⟩
  | .hbm, ⟨17, _⟩ => ⟨S1x96x128x128x128, .f32⟩
  | .hbm, ⟨18, _⟩ => ⟨S1x6x16x128x128x128, .f32⟩
  | _, _ => ⟨S1x16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]

class Facts₀ : Prop where
  pads_S1x16x128x128x128_S1x16x130x130x130_000_000_110_110_110 : S1x16x128x128x128.Pads (![0, 0, 1, 1, 1] : Fin 5 → Nat) ![0, 0, 1, 1, 1] ![0, 0, 0, 0, 0] S1x16x130x130x130
  h_S_ : 0 < S_.numel
  slices_S1x16x130x130x130_S1x16x128x128x128_0_0_1_1_2 : S1x16x130x130x130.Slices ![0, 0, 1, 1, 2] S1x16x128x128x128
  slices_S1x16x130x130x130_S1x16x128x128x128_0_0_1_1_0 : S1x16x130x130x130.Slices ![0, 0, 1, 1, 0] S1x16x128x128x128
  slices_S1x16x130x130x130_S1x16x128x128x128_0_0_1_2_1 : S1x16x130x130x130.Slices ![0, 0, 1, 2, 1] S1x16x128x128x128
  slices_S1x16x130x130x130_S1x16x128x128x128_0_0_1_0_1 : S1x16x130x130x130.Slices ![0, 0, 1, 0, 1] S1x16x128x128x128
  slices_S1x16x130x130x130_S1x16x128x128x128_0_0_2_1_1 : S1x16x130x130x130.Slices ![0, 0, 2, 1, 1] S1x16x128x128x128
  slices_S1x16x130x130x130_S1x16x128x128x128_0_0_0_1_1 : S1x16x130x130x130.Slices ![0, 0, 0, 1, 1] S1x16x128x128x128
  bcast_S1x16x128x128x128_S1x16x1x128x128x128_0_1_3_4_5 : S1x16x128x128x128.BroadcastsInDim S1x16x1x128x128x128 (![0, 1, 3, 4, 5] : Fin 5 → Fin S1x16x1x128x128x128.rank)
  concatenates_S1x16x1x128x128x128_S1x16x1x128x128x128_S1x16x1x128x128x128_S1x16x1x128x128x128_S1x16x1x128x128x128_S1x16x1x128x128x128_S1x16x6x128x128x128_d2 : Shape.Concatenates [S1x16x1x128x128x128, S1x16x1x128x128x128, S1x16x1x128x128x128, S1x16x1x128x128x128, S1x16x1x128x128x128, S1x16x1x128x128x128] S1x16x6x128x128x128 2
  shapeCasts_S1x16x6x128x128x128_S1x96x128x128x128 : S1x16x6x128x128x128.ShapeCasts S1x96x128x128x128
  shapeCasts_S1x96x128x128x128_S1x6x16x128x128x128 : S1x96x128x128x128.ShapeCasts S1x6x16x128x128x128

variable [Facts₀]

class Facts : Prop extends Facts₀ where

variable [Facts]
-- ==== Proof.Border.lean ====
/-
  The six-neighbour stencil, stated once over plain coordinates.

  An array `x` of shape [1, n, 128, 128, 128] is read with a border of zeros one cell wide around its three
  spatial axes: at border coordinates (d, h, w) in [0, 130)³ the value is `x` at (d - 1, h - 1, w - 1) when all
  three lie in [1, 128], and zero otherwise. The neighbour of a cell along one axis is then the bordered read at the
  cell's own border coordinates (each one more than the cell's) moved by one along that axis: tap k of the cell
  (d, h, w) is the bordered read at (o_d k + d, o_h k + h, o_w k + w) for the offsets
    k = 0: (1, 1, 2)   the cell after, along the last axis
    k = 1: (1, 1, 0)   the cell before, along the last axis
    k = 2: (1, 2, 1)   after, along the middle axis
    k = 3: (1, 0, 1)   before, along the middle axis
    k = 4: (2, 1, 1)   after, along the first spatial axis
    k = 5: (0, 1, 1)   before, along the first spatial axis.
  The result array has 96 = 16 · 6 channels: channel 6 c + k is tap k of input channel c.
-/
import Idealize.ShloMosaic.Lib.ValueIdx
import Idealize.ShloMosaic.PureOps.Ideal

noncomputable section

namespace Cert.Stencil

open Idealize.ShloMosaic Idealize.ShloMosaic.ValueIdx

/-- A statement about every axis of a rank-5 shape from the five axes one by one. -/
theorem forall_fin5 {P : Fin 5 → Prop} (h0 : P 0) (h1 : P 1) (h2 : P 2) (h3 : P 3) (h4 : P 4) : ∀ a, P a
  | ⟨0, _⟩ => h0
  | ⟨1, _⟩ => h1
  | ⟨2, _⟩ => h2
  | ⟨3, _⟩ => h3
  | ⟨4, _⟩ => h4

/-- An array of `n` channels of 128³ cells, with a leading unit axis. -/
abbrev Cube (n : Nat) : Shape := ⟨5, ![1, n, 128, 128, 128]⟩

/-- Channel `c` of `x` read at border coordinates: inside the border the cell one back on each axis, zero on the
    border (and zero for a channel the array does not have). -/
def bordered {n : Nat} (x : (Cube n).Idx → EReal) (c d h w : Nat) : EReal :=
  if hin : c < n ∧ (1 ≤ d ∧ d ≤ 128) ∧ (1 ≤ h ∧ h ≤ 128) ∧ (1 ≤ w ∧ w ≤ 128) then
    x (ix5 (0 : Fin 1) (⟨c, hin.1⟩ : Fin n) (⟨d - 1, by omega⟩ : Fin 128) (⟨h - 1, by omega⟩ : Fin 128)
      (⟨w - 1, by omega⟩ : Fin 128))
  else 0

/-- Inside the border the read is the array's entry: the caller names the entry. -/
theorem bordered_of_inside {n : Nat} (x : (Cube n).Idx → EReal) (c d h w : Nat) (k : (Cube n).Idx)
    (hc : (k 1).val = c) (hd : (k 2).val + 1 = d) (hh : (k 3).val + 1 = h) (hw : (k 4).val + 1 = w) :
    bordered x c d h w = x k := by
  have h1 : (k 1).val < n := (k 1).isLt
  have h2 : (k 2).val < 128 := (k 2).isLt
  have h3 : (k 3).val < 128 := (k 3).isLt
  have h4 : (k 4).val < 128 := (k 4).isLt
  unfold bordered
  rw [dif_pos (by omega)]
  refine congrArg x (funext fun a => ?_)
  match a with
  | ⟨0, _⟩ => exact Fin.ext (by have h0 : (k 0).val < 1 := (k 0).isLt; show 0 = (k 0).val; omega)
  | ⟨1, _⟩ => exact Fin.ext (by show c = (k 1).val; omega)
  | ⟨2, _⟩ => exact Fin.ext (by show d - 1 = (k 2).val; omega)
  | ⟨3, _⟩ => exact Fin.ext (by show h - 1 = (k 3).val; omega)
  | ⟨4, _⟩ => exact Fin.ext (by show w - 1 = (k 4).val; omega)

/-- On the border the read is zero. -/
theorem bordered_of_border {n : Nat} (x : (Cube n).Idx → EReal) (c d h w : Nat)
    (hb : ¬((1 ≤ d ∧ d ≤ 128) ∧ (1 ≤ h ∧ h ≤ 128) ∧ (1 ≤ w ∧ w ≤ 128))) : bordered x c d h w = 0 := by
  unfold bordered
  rw [dif_neg (fun hin => hb hin.2)]

/-- Two arrays that agree on a channel each (channel `c'` of `x'` is channel `c` of `x`, cell by cell) have the
    same bordered reads there. -/
theorem bordered_congr {n n' : Nat} (x : (Cube n).Idx → EReal) (x' : (Cube n').Idx → EReal) (c c' : Nat)
    (hc : c < n) (hc' : c' < n')
    (hx : ∀ (p q r : Fin 128), x' (ix5 (0 : Fin 1) (⟨c', hc'⟩ : Fin n') p q r) = x (ix5 (0 : Fin 1) (⟨c, hc⟩ : Fin n) p q r))
    (d h w : Nat) : bordered x' c' d h w = bordered x c d h w := by
  unfold bordered
  by_cases hin : (1 ≤ d ∧ d ≤ 128) ∧ (1 ≤ h ∧ h ≤ 128) ∧ (1 ≤ w ∧ w ≤ 128)
  · rw [dif_pos ⟨hc', hin⟩, dif_pos ⟨hc, hin⟩]
    exact hx _ _ _
  · rw [dif_neg (fun h' => hin h'.2), dif_neg (fun h' => hin h'.2)]

/-- The border offsets of tap `k` on the three spatial axes. -/
def offD : Nat → Nat
  | 4 => 2
  | 5 => 0
  | _ => 1
def offH : Nat → Nat
  | 2 => 2
  | 3 => 0
  | _ => 1
def offW : Nat → Nat
  | 0 => 2
  | 1 => 0
  | _ => 1

/-- Tap `k` of channel `c` at the cell (d, h, w). -/
def tap {n : Nat} (x : (Cube n).Idx → EReal) (c k d h w : Nat) : EReal :=
  bordered x c (offD k + d) (offH k + h) (offW k + w)

/-- The result over 96 channels: channel 6 c + k is tap k of channel c. -/
def taps96 (x : (Cube 16).Idx → EReal) : (Cube 96).Idx → EReal := fun j =>
  tap x ((j 1).val / 6) ((j 1).val % 6) (j 2).val (j 3).val (j 4).val

end Cert.Stencil

end
-- ==== Proof.RefSide.lean ====
/-
  The reference, stage by stage at the ideal values, is the six taps laid channel by channel.

  The argument is padded by one cell of zeros on each side of its three spatial axes: the padded array at
  (c, d, h, w) is the bordered read of the argument there. Each of the six slices takes a window of the padded array
  at the offsets of one tap, so slice k at the cell (d, h, w) is tap k. The six are given a unit axis after the
  channel axis and joined along it — entry (c, k, d, h, w) is tap k of channel c — and the join is then laid out
  with the two axes merged, channel 6 c + k: the row-major position is kept, so the merged array at channel `ch`
  is the joined one at (ch / 6, ch % 6).
-/
import proofs.«426737_j25821343383820_3_alg».proof.Proof.Gen.ReferenceIdeal.Read
import proofs.«426737_j25821343383820_3_alg».proof.Proof.Border
import Idealize.ShloMosaic.Lib.KernelVsHost
import Idealize.ShloMosaic.Lib.Pipeline.Value

set_option maxRecDepth 16384

noncomputable section

namespace Cert.ReferenceIdeal.RefValue

open Cert.ReferenceIdeal Cert.ReferenceIdeal.Gen Cert.ReferenceIdeal.Read Cert.Stencil
open Idealize.ShloMosaic Idealize.ShloMosaic.ValueIdx

/-- The padding value, an integer zero converted to a float, is the real zero. -/
theorem padValue (i : S_.Idx) : val_main_call0_v0 (F := Ideal) i = 0 := by
  show ((((0#32 : BitVec 32).toInt : ℤ) : ℝ) : EReal) = 0
  simp

/-- The padded array is the bordered read of the argument. -/
theorem padded_apply (x : (Cube 16).Idx → EReal) (p : S1x16x130x130x130.Idx) :
    val_main_v0 (F := Ideal) x p = bordered x (p 1).val (p 2).val (p 3).val (p 4).val := by
  have p0 : (p 0).val < 1 := (p 0).isLt
  have p1 : (p 1).val < 16 := (p 1).isLt
  have p2 : (p 2).val < 130 := (p 2).isLt
  have p3 : (p 3).val < 130 := (p 3).isLt
  have p4 : (p 4).val < 130 := (p 4).isLt
  unfold val_main_v0
  by_cases h2 : 1 ≤ (p 2).val ∧ (p 2).val ≤ 128
  · by_cases h3 : 1 ≤ (p 3).val ∧ (p 3).val ≤ 128
    · by_cases h4 : 1 ≤ (p 4).val ∧ (p 4).val ≤ 128
      · -- inside the border on all three axes: the argument's cell one back on each
        rw [pad_apply_of_inside (![0, 0, 1, 1, 1] : Fin 5 → Nat) ![0, 0, 1, 1, 1] ![0, 0, 0, 0, 0] x
          (val_main_call0_v0 (F := Ideal)) Gen.pads_S1x16x128x128x128_S1x16x130x130x130_000_000_110_110_110 Gen.h_S_ p
          (ix5 (0 : Fin 1) (⟨(p 1).val, p1⟩ : Fin 16) (⟨(p 2).val - 1, by omega⟩ : Fin 128)
            (⟨(p 3).val - 1, by omega⟩ : Fin 128) (⟨(p 4).val - 1, by omega⟩ : Fin 128))
          (forall_fin5 (by show (p 0).val = 0 + 0 * (0 + 1); omega) (by show (p 1).val = 0 + (p 1).val * (0 + 1); omega)
            (by show (p 2).val = 1 + ((p 2).val - 1) * (0 + 1); omega)
            (by show (p 3).val = 1 + ((p 3).val - 1) * (0 + 1); omega)
            (by show (p 4).val = 1 + ((p 4).val - 1) * (0 + 1); omega))]
        exact (bordered_of_inside x _ _ _ _ _ rfl (by show (p 2).val - 1 + 1 = (p 2).val; omega)
          (by show (p 3).val - 1 + 1 = (p 3).val; omega) (by show (p 4).val - 1 + 1 = (p 4).val; omega)).symm
      · rw [pad_apply_of_not_inside (![0, 0, 1, 1, 1] : Fin 5 → Nat) ![0, 0, 1, 1, 1] ![0, 0, 0, 0, 0] x
          (val_main_call0_v0 (F := Ideal)) Gen.pads_S1x16x128x128x128_S1x16x130x130x130_000_000_110_110_110 Gen.h_S_ p (4 : Fin 5)
          (by show ¬(1 ≤ (p 4).val ∧ ((p 4).val - 1) % (0 + 1) = 0 ∧ ((p 4).val - 1) / (0 + 1) < 128); omega), padValue]
        exact (bordered_of_border x _ _ _ _ (fun hb => h4 hb.2.2)).symm
    · rw [pad_apply_of_not_inside (![0, 0, 1, 1, 1] : Fin 5 → Nat) ![0, 0, 1, 1, 1] ![0, 0, 0, 0, 0] x
        (val_main_call0_v0 (F := Ideal)) Gen.pads_S1x16x128x128x128_S1x16x130x130x130_000_000_110_110_110 Gen.h_S_ p (3 : Fin 5)
        (by show ¬(1 ≤ (p 3).val ∧ ((p 3).val - 1) % (0 + 1) = 0 ∧ ((p 3).val - 1) / (0 + 1) < 128); omega), padValue]
      exact (bordered_of_border x _ _ _ _ (fun hb => h3 hb.2.1)).symm
  · rw [pad_apply_of_not_inside (![0, 0, 1, 1, 1] : Fin 5 → Nat) ![0, 0, 1, 1, 1] ![0, 0, 0, 0, 0] x
      (val_main_call0_v0 (F := Ideal)) Gen.pads_S1x16x128x128x128_S1x16x130x130x130_000_000_110_110_110 Gen.h_S_ p (2 : Fin 5)
      (by show ¬(1 ≤ (p 2).val ∧ ((p 2).val - 1) % (0 + 1) = 0 ∧ ((p 2).val - 1) / (0 + 1) < 128); omega), padValue]
    exact (bordered_of_border x _ _ _ _ (fun hb => h2 hb.1)).symm

/-! ## The six slices are the six taps -/

theorem slice0_apply (x : (Cube 16).Idx → EReal) (i : S1x16x128x128x128.Idx) :
    val_main_v1 (F := Ideal) x i = tap x (i 1).val 0 (i 2).val (i 3).val (i 4).val := by
  rw [val_main_v1_apply, padded_apply]; rfl
theorem slice1_apply (x : (Cube 16).Idx → EReal) (i : S1x16x128x128x128.Idx) :
    val_main_v2 (F := Ideal) x i = tap x (i 1).val 1 (i 2).val (i 3).val (i 4).val := by
  rw [val_main_v2_apply, padded_apply]
  show bordered x (i 1).val (1 + (i 2).val) (1 + (i 3).val) (i 4).val
    = bordered x (i 1).val (1 + (i 2).val) (1 + (i 3).val) (0 + (i 4).val)
  rw [Nat.zero_add]
theorem slice2_apply (x : (Cube 16).Idx → EReal) (i : S1x16x128x128x128.Idx) :
    val_main_v3 (F := Ideal) x i = tap x (i 1).val 2 (i 2).val (i 3).val (i 4).val := by
  rw [val_main_v3_apply, padded_apply]; rfl
theorem slice3_apply (x : (Cube 16).Idx → EReal) (i : S1x16x128x128x128.Idx) :
    val_main_v4 (F := Ideal) x i = tap x (i 1).val 3 (i 2).val (i 3).val (i 4).val := by
  rw [val_main_v4_apply, padded_apply]
  show bordered x (i 1).val (1 + (i 2).val) (i 3).val (1 + (i 4).val)
    = bordered x (i 1).val (1 + (i 2).val) (0 + (i 3).val) (1 + (i 4).val)
  rw [Nat.zero_add]
theorem slice4_apply (x : (Cube 16).Idx → EReal) (i : S1x16x128x128x128.Idx) :
    val_main_v5 (F := Ideal) x i = tap x (i 1).val 4 (i 2).val (i 3).val (i 4).val := by
  rw [val_main_v5_apply, padded_apply]; rfl
theorem slice5_apply (x : (Cube 16).Idx → EReal) (i : S1x16x128x128x128.Idx) :
    val_main_v6 (F := Ideal) x i = tap x (i 1).val 5 (i 2).val (i 3).val (i 4).val := by
  rw [val_main_v6_apply, padded_apply]
  show bordered x (i 1).val (i 2).val (1 + (i 3).val) (1 + (i 4).val)
    = bordered x (i 1).val (0 + (i 2).val) (1 + (i 3).val) (1 + (i 4).val)
  rw [Nat.zero_add]

/-! ## With the unit axis after the channel axis -/

theorem entry0_apply (x : (Cube 16).Idx → EReal) (q : S1x16x1x128x128x128.Idx) :
    val_main_v7 (F := Ideal) x q = tap x (q 1).val 0 (q 3).val (q 4).val (q 5).val := by
  rw [val_main_v7_apply, slice0_apply]
theorem entry1_apply (x : (Cube 16).Idx → EReal) (q : S1x16x1x128x128x128.Idx) :
    val_main_v8 (F := Ideal) x q = tap x (q 1).val 1 (q 3).val (q 4).val (q 5).val := by
  rw [val_main_v8_apply, slice1_apply]
theorem entry2_apply (x : (Cube 16).Idx → EReal) (q : S1x16x1x128x128x128.Idx) :
    val_main_v9 (F := Ideal) x q = tap x (q 1).val 2 (q 3).val (q 4).val (q 5).val := by
  rw [val_main_v9_apply, slice2_apply]
theorem entry3_apply (x : (Cube 16).Idx → EReal) (q : S1x16x1x128x128x128.Idx) :
    val_main_v10 (F := Ideal) x q = tap x (q 1).val 3 (q 3).val (q 4).val (q 5).val := by
  rw [val_main_v10_apply, slice3_apply]
theorem entry4_apply (x : (Cube 16).Idx → EReal) (q : S1x16x1x128x128x128.Idx) :
    val_main_v11 (F := Ideal) x q = tap x (q 1).val 4 (q 3).val (q 4).val (q 5).val := by
  rw [val_main_v11_apply, slice4_apply]
theorem entry5_apply (x : (Cube 16).Idx → EReal) (q : S1x16x1x128x128x128.Idx) :
    val_main_v12 (F := Ideal) x q = tap x (q 1).val 5 (q 3).val (q 4).val (q 5).val := by
  rw [val_main_v12_apply, slice5_apply]

/-! ## Joined along the unit axis -/

/-- The index of a joined entry within its piece: 0 on the joined axis, the entry's own coordinates elsewhere. -/
def inPiece (q : S1x16x6x128x128x128.Idx) : S1x16x1x128x128x128.Idx := fun a => match a with
  | ⟨0, _⟩ => ⟨(q 0).val, (q 0).isLt⟩
  | ⟨1, _⟩ => ⟨(q 1).val, (q 1).isLt⟩
  | ⟨2, _⟩ => ⟨0, Nat.one_pos⟩
  | ⟨3, _⟩ => ⟨(q 3).val, (q 3).isLt⟩
  | ⟨4, _⟩ => ⟨(q 4).val, (q 4).isLt⟩
  | ⟨5, _⟩ => ⟨(q 5).val, (q 5).isLt⟩

theorem inPiece_off (q : S1x16x6x128x128x128.Idx) :
    ∀ b : Fin S1x16x1x128x128x128.rank, b.cast (rfl : S1x16x1x128x128x128.rank = S1x16x6x128x128x128.rank) ≠ 2 →
      (inPiece q b).val = (q (b.cast rfl)).val
  | ⟨0, _⟩, _ => rfl
  | ⟨1, _⟩, _ => rfl
  | ⟨2, hb⟩, h => absurd (Fin.ext rfl) h
  | ⟨3, _⟩, _ => rfl
  | ⟨4, _⟩, _ => rfl
  | ⟨5, _⟩, _ => rfl

/-- Entry (c, k, d, h, w) of the join is tap k of channel c. -/
theorem joined_apply (x : (Cube 16).Idx → EReal) (q : S1x16x6x128x128x128.Idx) :
    val_main_v13 (F := Ideal) x q = tap x (q 1).val (q 2).val (q 3).val (q 4).val (q 5).val := by
  have q2 : (q 2).val < 6 := (q 2).isLt
  unfold val_main_v13
  obtain h | h | h | h | h | h : (q 2).val = 0 ∨ (q 2).val = 1 ∨ (q 2).val = 2 ∨ (q 2).val = 3 ∨ (q 2).val = 4 ∨ (q 2).val = 5 := by
    omega
  · rw [h]
    refine (concatenate_apply_piece 2 _ _ q 0 (by show (0 : Nat) < 6; decide) S1x16x1x128x128x128 (val_main_v7 (F := Ideal) x) rfl rfl 0 rfl
      (inPiece q) (inPiece_off q) (by show 0 + 0 = (q 2).val; omega)).trans ?_
    exact entry0_apply x _
  · rw [h]
    refine (concatenate_apply_piece 2 _ _ q 1 (by show (1 : Nat) < 6; decide) S1x16x1x128x128x128 (val_main_v8 (F := Ideal) x) rfl rfl 1 rfl
      (inPiece q) (inPiece_off q) (by show 1 + 0 = (q 2).val; omega)).trans ?_
    exact entry1_apply x _
  · rw [h]
    refine (concatenate_apply_piece 2 _ _ q 2 (by show (2 : Nat) < 6; decide) S1x16x1x128x128x128 (val_main_v9 (F := Ideal) x) rfl rfl 2 rfl
      (inPiece q) (inPiece_off q) (by show 2 + 0 = (q 2).val; omega)).trans ?_
    exact entry2_apply x _
  · rw [h]
    refine (concatenate_apply_piece 2 _ _ q 3 (by show (3 : Nat) < 6; decide) S1x16x1x128x128x128 (val_main_v10 (F := Ideal) x) rfl rfl 3 rfl
      (inPiece q) (inPiece_off q) (by show 3 + 0 = (q 2).val; omega)).trans ?_
    exact entry3_apply x _
  · rw [h]
    refine (concatenate_apply_piece 2 _ _ q 4 (by show (4 : Nat) < 6; decide) S1x16x1x128x128x128 (val_main_v11 (F := Ideal) x) rfl rfl 4 rfl
      (inPiece q) (inPiece_off q) (by show 4 + 0 = (q 2).val; omega)).trans ?_
    exact entry4_apply x _
  · rw [h]
    refine (concatenate_apply_piece 2 _ _ q 5 (by show (5 : Nat) < 6; decide) S1x16x1x128x128x128 (val_main_v12 (F := Ideal) x) rfl rfl 5 rfl
      (inPiece q) (inPiece_off q) (by show 5 + 0 = (q 2).val; omega)).trans ?_
    exact entry5_apply x _

/-! ## The two axes merged -/

/-- Where channel `ch` of the merged array sits in the join: (ch / 6, ch % 6). -/
def unmerge (j : S1x96x128x128x128.Idx) : S1x16x6x128x128x128.Idx := fun a => match a with
  | ⟨0, _⟩ => ⟨0, Nat.one_pos⟩
  | ⟨1, _⟩ => ⟨(j 1).val / 6, by have h : (j 1).val < 96 := (j 1).isLt; show (j 1).val / 6 < 16; omega⟩
  | ⟨2, _⟩ => ⟨(j 1).val % 6, by show (j 1).val % 6 < 6; omega⟩
  | ⟨3, _⟩ => ⟨(j 2).val, (j 2).isLt⟩
  | ⟨4, _⟩ => ⟨(j 3).val, (j 3).isLt⟩
  | ⟨5, _⟩ => ⟨(j 4).val, (j 4).isLt⟩

/-- The merged array is the stencil's 96 channels. -/
theorem merged_apply (x : (Cube 16).Idx → EReal) (j : S1x96x128x128x128.Idx) :
    val_main_v14 (F := Ideal) x j = taps96 x j := by
  have j0 : (j 0).val < 1 := (j 0).isLt
  unfold val_main_v14
  rw [shapeCast_apply (val_main_v13 (F := Ideal) x) Gen.shapeCasts_S1x16x6x128x128x128_S1x96x128x128x128 j (unmerge j) (by
    rw [Shape.rowMajor_val_succ, Shape.rowMajor_val_five, Shape.rowMajor_val_five]
    show 0 * _ + ((((((j 1).val / 6) * 6 + (j 1).val % 6) * 128 + (j 2).val) * 128 + (j 3).val) * 128 + (j 4).val)
      = ((((j 0).val * 96 + (j 1).val) * 128 + (j 2).val) * 128 + (j 3).val) * 128 + (j 4).val
    rw [Nat.zero_mul, Nat.zero_add]
    omega), joined_apply]
  rfl

theorem merged_eq (x : (Cube 16).Idx → EReal) : val_main_v14 (F := Ideal) x = taps96 x :=
  funext (merged_apply x)

end Cert.ReferenceIdeal.RefValue

end
-- ==== Proof.Roll.lean ====
/-
  A cube [1, 1, 128, 128, 128] rolled along one of its spatial axes, read at an index.

  The roll is made on the cube viewed without its two unit axes, [128, 128, 128], and the result is viewed with them
  again. Both views keep every cell's row-major position, so cell (0, 0, d, h, w) of the result is the cell of the
  operand whose coordinate on the rolled axis is moved back by the amount, around the end, and whose other
  coordinates are unchanged.
-/
import proofs.«426737_j25821343383820_3_alg».proof.Proof.Border
import Idealize.ShloMosaic.Lib.Pipeline.Value
import Idealize.ShloMosaic.Lib.KernelVsHost
import Idealize.ShloMosaic.Lib.ValueIdx

noncomputable section

namespace Cert.Stencil

open Idealize.ShloMosaic Idealize.ShloMosaic.ValueIdx

variable {α : Type}

/-- One channel's cells with the leading unit axes, and without them. -/
abbrev Cell5 : Shape := ⟨5, ![1, 1, 128, 128, 128]⟩
abbrev Cell3 : Shape := ⟨3, ![128, 128, 128]⟩

/-- The view without the unit axes at (d, h, w) is the cube at (0, 0, d, h, w). -/
theorem drop2_apply (v : Cell5.Idx → α) (h : Cell5.ShapeCasts Cell3) (j : Cell3.Idx) (k : Cell5.Idx)
    (e2 : (k 2).val = (j 0).val) (e3 : (k 3).val = (j 1).val) (e4 : (k 4).val = (j 2).val) :
    shapeCast Cell3 v h j = v k :=
  shapeCast_apply v h j k (by
    have k0 : (k 0).val < 1 := (k 0).isLt
    have k1 : (k 1).val < 1 := (k 1).isLt
    rw [Shape.rowMajor_val_five, Shape.rowMajor_val_three]
    show ((((k 0).val * 1 + (k 1).val) * 128 + (k 2).val) * 128 + (k 3).val) * 128 + (k 4).val
      = ((j 0).val * 128 + (j 1).val) * 128 + (j 2).val
    omega)

/-- The view with the unit axes at (0, 0, d, h, w) is the cube's cells at (d, h, w). -/
theorem add2_apply (v : Cell3.Idx → α) (h : Cell3.ShapeCasts Cell5) (j : Cell5.Idx) (k : Cell3.Idx)
    (e0 : (k 0).val = (j 2).val) (e1 : (k 1).val = (j 3).val) (e2 : (k 2).val = (j 4).val) :
    shapeCast Cell5 v h j = v k :=
  shapeCast_apply v h j k (by
    have j0 : (j 0).val < 1 := (j 0).isLt
    have j1 : (j 1).val < 1 := (j 1).isLt
    rw [Shape.rowMajor_val_five, Shape.rowMajor_val_three]
    show ((k 0).val * 128 + (k 1).val) * 128 + (k 2).val
      = ((((j 0).val * 1 + (j 1).val) * 128 + (j 2).val) * 128 + (j 3).val) * 128 + (j 4).val
    omega)

/-- Rolled along the LAST axis by `s`: the cell whose last coordinate is `s` back, around the end. -/
theorem rollLast_apply (s : BitVec 32) (v : Cell5.Idx → α) (h1 : Cell5.ShapeCasts Cell3) (hr : Cell3.Rotates 2 none)
    (h2 : Cell3.ShapeCasts Cell5) (x k : Cell5.Idx) (e2 : (k 2).val = (x 2).val) (e3 : (k 3).val = (x 3).val)
    (e4 : (k 4).val = ((x 4).val + 128 - s.toNat % 128) % 128) :
    shapeCast Cell5 (dynamicRotate 2 s none (shapeCast Cell3 v h1) hr) h2 x = v k := by
  refine (add2_apply _ h2 x (ix3 (x 2) (x 3) (x 4)) rfl rfl rfl).trans ?_
  refine (dynamicRotate_apply 2 s (shapeCast Cell3 v h1) hr (ix3 (x 2) (x 3) (x 4)) (ix3 (k 2) (k 3) (k 4)) ?_).trans ?_
  · intro b
    match b with
    | ⟨0, hb⟩ => rw [if_neg (Fin.ne_of_val_ne (show (0 : Nat) ≠ 2 by decide))]; exact e2
    | ⟨1, hb⟩ => rw [if_neg (Fin.ne_of_val_ne (show (1 : Nat) ≠ 2 by decide))]; exact e3
    | ⟨2, hb⟩ => rw [if_pos (show (⟨2, hb⟩ : Fin Cell3.rank) = 2 from rfl)]; exact e4
  · exact drop2_apply v h1 _ k rfl rfl rfl

/-- Rolled along the MIDDLE axis by `s`: the cell whose middle coordinate is `s` back, around the end. -/
theorem rollMid_apply (s : BitVec 32) (v : Cell5.Idx → α) (h1 : Cell5.ShapeCasts Cell3) (hr : Cell3.Rotates 1 none)
    (h2 : Cell3.ShapeCasts Cell5) (x k : Cell5.Idx) (e2 : (k 2).val = (x 2).val)
    (e3 : (k 3).val = ((x 3).val + 128 - s.toNat % 128) % 128) (e4 : (k 4).val = (x 4).val) :
    shapeCast Cell5 (dynamicRotate 1 s none (shapeCast Cell3 v h1) hr) h2 x = v k := by
  refine (add2_apply _ h2 x (ix3 (x 2) (x 3) (x 4)) rfl rfl rfl).trans ?_
  refine (dynamicRotate_apply 1 s (shapeCast Cell3 v h1) hr (ix3 (x 2) (x 3) (x 4)) (ix3 (k 2) (k 3) (k 4)) ?_).trans ?_
  · intro b
    match b with
    | ⟨0, hb⟩ => rw [if_neg (Fin.ne_of_val_ne (show (0 : Nat) ≠ 1 by decide))]; exact e2
    | ⟨1, hb⟩ => rw [if_pos (show (⟨1, hb⟩ : Fin Cell3.rank) = 1 from rfl)]; exact e3
    | ⟨2, hb⟩ => rw [if_neg (Fin.ne_of_val_ne (show (2 : Nat) ≠ 1 by decide))]; exact e4
  · exact drop2_apply v h1 _ k rfl rfl rfl

end Cert.Stencil

end
-- ==== Proof.PointStores.lean ====
/-
  What one grid point of the kernel stores, read at a cell.

  A point stores a pair of cubes, [1, 2, 128, 128, 128], from its input cube [1, 1, 128, 128, 128]. In each of the three
  cases the pair holds the two taps along one axis: cube `j` of the pair is tap `2 κ + j` of the input cube, for
  κ = 0 (last axis), 1 (middle axis), 2 (first spatial axis). The body makes four stores, and a later store hides an
  earlier one where their rectangles meet: in the first two cases a whole cube is stored rolled by one along the axis
  and then the column (row) the roll brought around the end is overwritten with zeros; in the third the cube moved by
  one plane is stored into 127 planes and the remaining plane is filled with zeros. Reading a cell, the stores are
  opened newest first: the cell is either in the zero edge — where the tap reads the border — or it is not, and
  then it is in the data store — where the tap reads inside.
-/
import proofs.«426737_j25821343383820_3_alg».proof.Proof.Gen.KernelIdeal.Frame
import proofs.«426737_j25821343383820_3_alg».proof.Proof.Roll
import Idealize.ShloMosaic.Lib.WritesUnit
import Idealize.ShloMosaic.Lib.IdealHost

set_option maxRecDepth 16384

noncomputable section

namespace Cert.KernelIdeal.PointValue

open Cert.KernelIdeal Cert.KernelIdeal.Gen Cert.Stencil
open Idealize.ShloMosaic Idealize.ShloMosaic.TcCoe Idealize.ShloMosaic.Tactic Idealize.ShloMosaic.ValueIdx
open Idealize.SL Idealize.SL.Sem

/-- The zero offsets of a whole-cube access, as a function. -/
theorem zeros5 : (![0, 0, 0, 0, 0] : Fin 5 → Nat) = fun _ => 0 :=
  funext (forall_fin5 rfl rfl rfl rfl rfl)

/-! ## The payloads at a cell -/

/-- The zero fills. -/
theorem pay3_apply (x) : k0_pay3 (F := Ideal) x = 0 := by
  show Ideal.ofBits .f32 0x00000000#32 = 0
  exact Ideal.ofBits_zero_f32
theorem pay5_apply (x) : k0_pay5 (F := Ideal) x = 0 := by
  show Ideal.ofBits .f32 0x00000000#32 = 0
  exact Ideal.ofBits_zero_f32

/-- Rolled by 127 along the last axis: the next cell along it, around the end. -/
theorem pay2_apply (v : Vec Ideal S1x1x128x128x128 .f32) (x k : S1x1x128x128x128.Idx) (e2 : (k 2).val = (x 2).val)
    (e3 : (k 3).val = (x 3).val) (e4 : (k 4).val = ((x 4).val + 128 - 127) % 128) : k0_pay2 v x = v k := by
  unfold k0_pay2 k0_pay1
  exact rollLast_apply 127#32 v _ _ _ x k e2 e3 e4

/-- Rolled by 1 along the last axis: the cell before along it, around the end. -/
theorem pay4_apply (v : Vec Ideal S1x1x128x128x128 .f32) (x k : S1x1x128x128x128.Idx) (e2 : (k 2).val = (x 2).val)
    (e3 : (k 3).val = (x 3).val) (e4 : (k 4).val = ((x 4).val + 128 - 1) % 128) : k0_pay4 v x = v k := by
  unfold k0_pay4 k0_pay1
  exact rollLast_apply 1#32 v _ _ _ x k e2 e3 e4

/-! ## The last axis -/

theorem pointA (c : Dev nD) (i : grid0.Coords) (arg2 : Memref sig .tc .vmem S1x1x128x128x128 .f32) (harg2 : arg2.IsWhole)
    (arg3 : Memref sig .tc .vmem S1x2x128x128x128 .f32) (harg3 : arg3.IsWhole) (hc0 : cond0_0 i) (hc1 : ¬cond0_1 i)
    (hc2 : ¬cond0_2 i) (x0 : Vec Ideal S1x1x128x128x128 .f32) (j : Fin 2) (d h w : Fin 128) :
    out0_A_1 (F := Ideal) c i arg2 harg2 arg3 harg3 hc0 hc1 hc2 x0 (ix5 (0 : Fin 1) j d h w)
      = tap (n := 1) x0 0 j.val d.val h.val w.val := by
  have hd : d.val < 128 := d.isLt
  have hh : h.val < 128 := h.isLt
  have hw : w.val < 128 := w.isLt
  unfold out0_A_1 kernelRun0_A
  dsimp only
  sl_unfold_words
  simp only [View.readAt_eq_ld, harg2.read_unread, View.ld_unit_zero (S := S1x1x128x128x128) zeros5]
  match j with
  | ⟨1, hj⟩ =>
    by_cases hw0 : w.val = 0
    · -- the zero column at the start of the second cube: the cell before is on the border
      refine (View.read_writes_cons_unit_of_mem VO0_1 _ (off := ![0, 1, 0, 0, 0]) (off' := ![0, 1, 0, 0, 0])
        (size := ![1, 1, 128, 128, 1]) _ _ _ (ix5 (0 : Fin 1) (⟨1, hj⟩ : Fin 2) d h w)
        (ix5 (0 : Fin 1) (0 : Fin 1) d h (0 : Fin 1)) rfl
        (forall_fin5 (by show (0 : Nat) = 0 + 0; rfl) (by show (1 : Nat) = 1 + 0; rfl) (by show d.val = 0 + d.val; omega)
          (by show h.val = 0 + h.val; omega) (by show w.val = 0 + 0; omega))).trans ?_
      rw [pay5_apply]
      exact (bordered_of_border x0 0 _ _ _ (fun hb => by
        have := hb.2.2.1
        change 1 ≤ 0 + w.val at this
        omega)).symm
    · refine (View.read_writes_cons_unit_of_not_mem VO0_1 _ (off := ![0, 1, 0, 0, 0]) (off' := ![0, 1, 0, 0, 0])
        (size := ![1, 1, 128, 128, 1]) _ _ _ (ix5 (0 : Fin 1) (⟨1, hj⟩ : Fin 2) d h w) rfl (4 : Fin 5)
        (Or.inr (by show 0 + 1 ≤ w.val; omega))).trans ?_
      refine (View.read_writes_cons_unit_of_mem VO0_1 _ (off := ![0, 1, 0, 0, 0]) (off' := ![0, 1, 0, 0, 0])
        (size := ![1, 1, 128, 128, 128]) _ _ _ (ix5 (0 : Fin 1) (⟨1, hj⟩ : Fin 2) d h w)
        (ix5 (0 : Fin 1) (0 : Fin 1) d h w) rfl
        (forall_fin5 (by show (0 : Nat) = 0 + 0; rfl) (by show (1 : Nat) = 1 + 0; rfl) (by show d.val = 0 + d.val; omega)
          (by show h.val = 0 + h.val; omega) (by show w.val = 0 + w.val; omega))).trans ?_
      rw [pay4_apply x0 (ix5 (0 : Fin 1) (0 : Fin 1) d h w) (ix5 (0 : Fin 1) (0 : Fin 1) d h (⟨w.val - 1, by omega⟩ : Fin 128)) rfl rfl
        (by show w.val - 1 = (w.val + 128 - 1) % 128; omega)]
      exact (bordered_of_inside x0 0 _ _ _ _ rfl (by show d.val + 1 = 1 + d.val; omega)
        (by show h.val + 1 = 1 + h.val; omega) (by show w.val - 1 + 1 = 0 + w.val; omega)).symm
  | ⟨0, hj⟩ =>
    refine (View.read_writes_cons_unit_of_not_mem VO0_1 _ (off := ![0, 1, 0, 0, 0]) (off' := ![0, 1, 0, 0, 0])
      (size := ![1, 1, 128, 128, 1]) _ _ _ (ix5 (0 : Fin 1) (⟨0, hj⟩ : Fin 2) d h w) rfl (1 : Fin 5)
      (Or.inl (by show (0 : Nat) < 1; decide))).trans ?_
    refine (View.read_writes_cons_unit_of_not_mem VO0_1 _ (off := ![0, 1, 0, 0, 0]) (off' := ![0, 1, 0, 0, 0])
      (size := ![1, 1, 128, 128, 128]) _ _ _ (ix5 (0 : Fin 1) (⟨0, hj⟩ : Fin 2) d h w) rfl (1 : Fin 5)
      (Or.inl (by show (0 : Nat) < 1; decide))).trans ?_
    by_cases hw1 : w.val = 127
    · -- the zero column at the end of the first cube: the next cell is on the border
      refine (View.read_writes_cons_unit_of_mem VO0_1 _ (off := ![0, 0, 0, 0, 127]) (off' := ![0, 0, 0, 0, 127])
        (size := ![1, 1, 128, 128, 1]) _ _ _ (ix5 (0 : Fin 1) (⟨0, hj⟩ : Fin 2) d h w)
        (ix5 (0 : Fin 1) (0 : Fin 1) d h (0 : Fin 1)) rfl
        (forall_fin5 (by show (0 : Nat) = 0 + 0; rfl) (by show (0 : Nat) = 0 + 0; rfl) (by show d.val = 0 + d.val; omega)
          (by show h.val = 0 + h.val; omega) (by show w.val = 127 + 0; omega))).trans ?_
      rw [pay3_apply]
      exact (bordered_of_border x0 0 _ _ _ (fun hb => by
        have := hb.2.2.2
        change 2 + w.val ≤ 128 at this
        omega)).symm
    · refine (View.read_writes_cons_unit_of_not_mem VO0_1 _ (off := ![0, 0, 0, 0, 127]) (off' := ![0, 0, 0, 0, 127])
        (size := ![1, 1, 128, 128, 1]) _ _ _ (ix5 (0 : Fin 1) (⟨0, hj⟩ : Fin 2) d h w) rfl (4 : Fin 5)
        (Or.inl (by show w.val < 127; omega))).trans ?_
      refine (View.read_writes_cons_unit_of_mem VO0_1 _ (off := ![0, 0, 0, 0, 0]) (off' := ![0, 0, 0, 0, 0])
        (size := ![1, 1, 128, 128, 128]) _ _ _ (ix5 (0 : Fin 1) (⟨0, hj⟩ : Fin 2) d h w)
        (ix5 (0 : Fin 1) (0 : Fin 1) d h w) rfl
        (forall_fin5 (by show (0 : Nat) = 0 + 0; rfl) (by show (0 : Nat) = 0 + 0; rfl) (by show d.val = 0 + d.val; omega)
          (by show h.val = 0 + h.val; omega) (by show w.val = 0 + w.val; omega))).trans ?_
      rw [pay2_apply x0 (ix5 (0 : Fin 1) (0 : Fin 1) d h w) (ix5 (0 : Fin 1) (0 : Fin 1) d h (⟨w.val + 1, by omega⟩ : Fin 128)) rfl rfl
        (by show w.val + 1 = (w.val + 128 - 127) % 128; omega)]
      exact (bordered_of_inside x0 0 _ _ _ _ rfl (by show d.val + 1 = 1 + d.val; omega)
        (by show h.val + 1 = 1 + h.val; omega) (by show w.val + 1 + 1 = 2 + w.val; omega)).symm

/-! ## The middle axis -/

theorem pay8_apply (x) : k0_pay8 (F := Ideal) x = 0 := by
  show Ideal.ofBits .f32 0x00000000#32 = 0
  exact Ideal.ofBits_zero_f32
theorem pay10_apply (x) : k0_pay10 (F := Ideal) x = 0 := by
  show Ideal.ofBits .f32 0x00000000#32 = 0
  exact Ideal.ofBits_zero_f32

/-- Rolled by 127 along the middle axis: the next cell along it, around the end. -/
theorem pay7_apply (v : Vec Ideal S1x1x128x128x128 .f32) (x k : S1x1x128x128x128.Idx) (e2 : (k 2).val = (x 2).val)
    (e3 : (k 3).val = ((x 3).val + 128 - 127) % 128) (e4 : (k 4).val = (x 4).val) : k0_pay7 v x = v k := by
  unfold k0_pay7 k0_pay6
  exact rollMid_apply 127#32 v _ _ _ x k e2 e3 e4

/-- Rolled by 1 along the middle axis: the cell before along it, around the end. -/
theorem pay9_apply (v : Vec Ideal S1x1x128x128x128 .f32) (x k : S1x1x128x128x128.Idx) (e2 : (k 2).val = (x 2).val)
    (e3 : (k 3).val = ((x 3).val + 128 - 1) % 128) (e4 : (k 4).val = (x 4).val) : k0_pay9 v x = v k := by
  unfold k0_pay9 k0_pay6
  exact rollMid_apply 1#32 v _ _ _ x k e2 e3 e4

theorem pointB (c : Dev nD) (i : grid0.Coords) (arg2 : Memref sig .tc .vmem S1x1x128x128x128 .f32) (harg2 : arg2.IsWhole)
    (arg3 : Memref sig .tc .vmem S1x2x128x128x128 .f32) (harg3 : arg3.IsWhole) (hc0 : ¬cond0_0 i) (hc1 : cond0_1 i)
    (hc2 : ¬cond0_2 i) (x0 : Vec Ideal S1x1x128x128x128 .f32) (j : Fin 2) (d h w : Fin 128) :
    out0_B_1 (F := Ideal) c i arg2 harg2 arg3 harg3 hc0 hc1 hc2 x0 (ix5 (0 : Fin 1) j d h w)
      = tap (n := 1) x0 0 (2 + j.val) d.val h.val w.val := by
  have hd : d.val < 128 := d.isLt
  have hh : h.val < 128 := h.isLt
  have hw : w.val < 128 := w.isLt
  unfold out0_B_1 kernelRun0_B
  dsimp only
  sl_unfold_words
  simp only [View.readAt_eq_ld, harg2.read_unread, View.ld_unit_zero (S := S1x1x128x128x128) zeros5]
  match j with
  | ⟨1, hj⟩ =>
    by_cases hh0 : h.val = 0
    · -- the zero row at the start of the second cube: the cell before is on the border
      refine (View.read_writes_cons_unit_of_mem VO0_1 _ (off := ![0, 1, 0, 0, 0]) (off' := ![0, 1, 0, 0, 0])
        (size := ![1, 1, 128, 1, 128]) _ _ _ (ix5 (0 : Fin 1) (⟨1, hj⟩ : Fin 2) d h w)
        (ix5 (0 : Fin 1) (0 : Fin 1) d (0 : Fin 1) w) rfl
        (forall_fin5 (by show (0 : Nat) = 0 + 0; rfl) (by show (1 : Nat) = 1 + 0; rfl) (by show d.val = 0 + d.val; omega)
          (by show h.val = 0 + 0; omega) (by show w.val = 0 + w.val; omega))).trans ?_
      rw [pay10_apply]
      exact (bordered_of_border x0 0 _ _ _ (fun hb => by
        have := hb.2.1.1
        change 1 ≤ 0 + h.val at this
        omega)).symm
    · refine (View.read_writes_cons_unit_of_not_mem VO0_1 _ (off := ![0, 1, 0, 0, 0]) (off' := ![0, 1, 0, 0, 0])
        (size := ![1, 1, 128, 1, 128]) _ _ _ (ix5 (0 : Fin 1) (⟨1, hj⟩ : Fin 2) d h w) rfl (3 : Fin 5)
        (Or.inr (by show 0 + 1 ≤ h.val; omega))).trans ?_
      refine (View.read_writes_cons_unit_of_mem VO0_1 _ (off := ![0, 1, 0, 0, 0]) (off' := ![0, 1, 0, 0, 0])
        (size := ![1, 1, 128, 128, 128]) _ _ _ (ix5 (0 : Fin 1) (⟨1, hj⟩ : Fin 2) d h w)
        (ix5 (0 : Fin 1) (0 : Fin 1) d h w) rfl
        (forall_fin5 (by show (0 : Nat) = 0 + 0; rfl) (by show (1 : Nat) = 1 + 0; rfl) (by show d.val = 0 + d.val; omega)
          (by show h.val = 0 + h.val; omega) (by show w.val = 0 + w.val; omega))).trans ?_
      rw [pay9_apply x0 (ix5 (0 : Fin 1) (0 : Fin 1) d h w)
        (ix5 (0 : Fin 1) (0 : Fin 1) d (⟨h.val - 1, by omega⟩ : Fin 128) w) rfl
        (by show h.val - 1 = (h.val + 128 - 1) % 128; omega) rfl]
      exact (bordered_of_inside x0 0 _ _ _ _ rfl (by show d.val + 1 = 1 + d.val; omega)
        (by show h.val - 1 + 1 = 0 + h.val; omega) (by show w.val + 1 = 1 + w.val; omega)).symm
  | ⟨0, hj⟩ =>
    refine (View.read_writes_cons_unit_of_not_mem VO0_1 _ (off := ![0, 1, 0, 0, 0]) (off' := ![0, 1, 0, 0, 0])
      (size := ![1, 1, 128, 1, 128]) _ _ _ (ix5 (0 : Fin 1) (⟨0, hj⟩ : Fin 2) d h w) rfl (1 : Fin 5)
      (Or.inl (by show (0 : Nat) < 1; decide))).trans ?_
    refine (View.read_writes_cons_unit_of_not_mem VO0_1 _ (off := ![0, 1, 0, 0, 0]) (off' := ![0, 1, 0, 0, 0])
      (size := ![1, 1, 128, 128, 128]) _ _ _ (ix5 (0 : Fin 1) (⟨0, hj⟩ : Fin 2) d h w) rfl (1 : Fin 5)
      (Or.inl (by show (0 : Nat) < 1; decide))).trans ?_
    by_cases hh1 : h.val = 127
    · -- the zero row at the end of the first cube: the next cell is on the border
      refine (View.read_writes_cons_unit_of_mem VO0_1 _ (off := ![0, 0, 0, 127, 0]) (off' := ![0, 0, 0, 127, 0])
        (size := ![1, 1, 128, 1, 128]) _ _ _ (ix5 (0 : Fin 1) (⟨0, hj⟩ : Fin 2) d h w)
        (ix5 (0 : Fin 1) (0 : Fin 1) d (0 : Fin 1) w) rfl
        (forall_fin5 (by show (0 : Nat) = 0 + 0; rfl) (by show (0 : Nat) = 0 + 0; rfl) (by show d.val = 0 + d.val; omega)
          (by show h.val = 127 + 0; omega) (by show w.val = 0 + w.val; omega))).trans ?_
      rw [pay8_apply]
      exact (bordered_of_border x0 0 _ _ _ (fun hb => by
        have := hb.2.1.2
        change 2 + h.val ≤ 128 at this
        omega)).symm
    · refine (View.read_writes_cons_unit_of_not_mem VO0_1 _ (off := ![0, 0, 0, 127, 0]) (off' := ![0, 0, 0, 127, 0])
        (size := ![1, 1, 128, 1, 128]) _ _ _ (ix5 (0 : Fin 1) (⟨0, hj⟩ : Fin 2) d h w) rfl (3 : Fin 5)
        (Or.inl (by show h.val < 127; omega))).trans ?_
      refine (View.read_writes_cons_unit_of_mem VO0_1 _ (off := ![0, 0, 0, 0, 0]) (off' := ![0, 0, 0, 0, 0])
        (size := ![1, 1, 128, 128, 128]) _ _ _ (ix5 (0 : Fin 1) (⟨0, hj⟩ : Fin 2) d h w)
        (ix5 (0 : Fin 1) (0 : Fin 1) d h w) rfl
        (forall_fin5 (by show (0 : Nat) = 0 + 0; rfl) (by show (0 : Nat) = 0 + 0; rfl) (by show d.val = 0 + d.val; omega)
          (by show h.val = 0 + h.val; omega) (by show w.val = 0 + w.val; omega))).trans ?_
      rw [pay7_apply x0 (ix5 (0 : Fin 1) (0 : Fin 1) d h w)
        (ix5 (0 : Fin 1) (0 : Fin 1) d (⟨h.val + 1, by omega⟩ : Fin 128) w) rfl
        (by show h.val + 1 = (h.val + 128 - 127) % 128; omega) rfl]
      exact (bordered_of_inside x0 0 _ _ _ _ rfl (by show d.val + 1 = 1 + d.val; omega)
        (by show h.val + 1 + 1 = 2 + h.val; omega) (by show w.val + 1 = 1 + w.val; omega)).symm

/-! ## The first spatial axis -/

theorem pay12_apply (x) : k0_pay12 (F := Ideal) x = 0 := by
  show Ideal.ofBits .f32 0x00000000#32 = 0
  exact Ideal.ofBits_zero_f32
theorem pay14_apply (x) : k0_pay14 (F := Ideal) x = 0 := by
  show Ideal.ofBits .f32 0x00000000#32 = 0
  exact Ideal.ofBits_zero_f32

/-- 127 planes viewed without their unit axes and with them again: unchanged. -/
theorem pay11_apply (v : Vec Ideal S1x1x127x128x128 .f32) : k0_pay11 v = v := by
  unfold k0_pay11
  exact shapeCast_shapeCast v _ _
theorem pay13_apply (v : Vec Ideal S1x1x127x128x128 .f32) : k0_pay13 v = v := by
  unfold k0_pay13
  exact shapeCast_shapeCast v _ _

theorem pointC (c : Dev nD) (i : grid0.Coords) (arg2 : Memref sig .tc .vmem S1x1x128x128x128 .f32) (harg2 : arg2.IsWhole)
    (arg3 : Memref sig .tc .vmem S1x2x128x128x128 .f32) (harg3 : arg3.IsWhole) (hc0 : ¬cond0_0 i) (hc1 : ¬cond0_1 i)
    (hc2 : cond0_2 i) (x0 : Vec Ideal S1x1x128x128x128 .f32) (j : Fin 2) (d h w : Fin 128) :
    out0_C_1 (F := Ideal) c i arg2 harg2 arg3 harg3 hc0 hc1 hc2 x0 (ix5 (0 : Fin 1) j d h w)
      = tap (n := 1) x0 0 (4 + j.val) d.val h.val w.val := by
  have hd : d.val < 128 := d.isLt
  have hh : h.val < 128 := h.isLt
  have hw : w.val < 128 := w.isLt
  unfold out0_C_1 kernelRun0_C
  dsimp only
  sl_unfold_words
  simp only [View.readAt_eq_ld, harg2.read_unread]
  match j with
  | ⟨1, hj⟩ =>
    by_cases hd0 : d.val = 0
    · -- the zero plane at the start of the second cube: the cell before is on the border
      refine (View.read_writes_cons_unit_of_mem VO0_1 _ (off := ![0, 1, 0, 0, 0]) (off' := ![0, 1, 0, 0, 0])
        (size := ![1, 1, 1, 128, 128]) _ _ _ (ix5 (0 : Fin 1) (⟨1, hj⟩ : Fin 2) d h w)
        (ix5 (0 : Fin 1) (0 : Fin 1) (0 : Fin 1) h w) rfl
        (forall_fin5 (by show (0 : Nat) = 0 + 0; rfl) (by show (1 : Nat) = 1 + 0; rfl) (by show d.val = 0 + 0; omega)
          (by show h.val = 0 + h.val; omega) (by show w.val = 0 + w.val; omega))).trans ?_
      rw [pay14_apply]
      exact (bordered_of_border x0 0 _ _ _ (fun hb => by
        have := hb.1.1
        change 1 ≤ 0 + d.val at this
        omega)).symm
    · refine (View.read_writes_cons_unit_of_not_mem VO0_1 _ (off := ![0, 1, 0, 0, 0]) (off' := ![0, 1, 0, 0, 0])
        (size := ![1, 1, 1, 128, 128]) _ _ _ (ix5 (0 : Fin 1) (⟨1, hj⟩ : Fin 2) d h w) rfl (2 : Fin 5)
        (Or.inr (by show 0 + 1 ≤ d.val; omega))).trans ?_
      refine (View.read_writes_cons_unit_of_mem VO0_1 _ (off := ![0, 1, 1, 0, 0]) (off' := ![0, 1, 1, 0, 0])
        (size := ![1, 1, 127, 128, 128]) _ _ _ (ix5 (0 : Fin 1) (⟨1, hj⟩ : Fin 2) d h w)
        (ix5 (0 : Fin 1) (0 : Fin 1) (⟨d.val - 1, by omega⟩ : Fin 127) h w) rfl
        (forall_fin5 (by show (0 : Nat) = 0 + 0; rfl) (by show (1 : Nat) = 1 + 0; rfl)
          (by show d.val = 1 + (d.val - 1); omega) (by show h.val = 0 + h.val; omega)
          (by show w.val = 0 + w.val; omega))).trans ?_
      rw [pay13_apply]
      exact (bordered_of_inside x0 0 _ _ _ _ (by show 0 + 1 * 0 = 0; rfl)
        (by show 0 + 1 * (d.val - 1) + 1 = 0 + d.val; omega) (by show 0 + 1 * h.val + 1 = 1 + h.val; omega)
        (by show 0 + 1 * w.val + 1 = 1 + w.val; omega)).symm
  | ⟨0, hj⟩ =>
    refine (View.read_writes_cons_unit_of_not_mem VO0_1 _ (off := ![0, 1, 0, 0, 0]) (off' := ![0, 1, 0, 0, 0])
      (size := ![1, 1, 1, 128, 128]) _ _ _ (ix5 (0 : Fin 1) (⟨0, hj⟩ : Fin 2) d h w) rfl (1 : Fin 5)
      (Or.inl (by show (0 : Nat) < 1; decide))).trans ?_
    refine (View.read_writes_cons_unit_of_not_mem VO0_1 _ (off := ![0, 1, 1, 0, 0]) (off' := ![0, 1, 1, 0, 0])
      (size := ![1, 1, 127, 128, 128]) _ _ _ (ix5 (0 : Fin 1) (⟨0, hj⟩ : Fin 2) d h w) rfl (1 : Fin 5)
      (Or.inl (by show (0 : Nat) < 1; decide))).trans ?_
    by_cases hd1 : d.val = 127
    · -- the zero plane at the end of the first cube: the next cell is on the border
      refine (View.read_writes_cons_unit_of_mem VO0_1 _ (off := ![0, 0, 127, 0, 0]) (off' := ![0, 0, 127, 0, 0])
        (size := ![1, 1, 1, 128, 128]) _ _ _ (ix5 (0 : Fin 1) (⟨0, hj⟩ : Fin 2) d h w)
        (ix5 (0 : Fin 1) (0 : Fin 1) (0 : Fin 1) h w) rfl
        (forall_fin5 (by show (0 : Nat) = 0 + 0; rfl) (by show (0 : Nat) = 0 + 0; rfl) (by show d.val = 127 + 0; omega)
          (by show h.val = 0 + h.val; omega) (by show w.val = 0 + w.val; omega))).trans ?_
      rw [pay12_apply]
      exact (bordered_of_border x0 0 _ _ _ (fun hb => by
        have := hb.1.2
        change 2 + d.val ≤ 128 at this
        omega)).symm
    · refine (View.read_writes_cons_unit_of_not_mem VO0_1 _ (off := ![0, 0, 127, 0, 0]) (off' := ![0, 0, 127, 0, 0])
        (size := ![1, 1, 1, 128, 128]) _ _ _ (ix5 (0 : Fin 1) (⟨0, hj⟩ : Fin 2) d h w) rfl (2 : Fin 5)
        (Or.inl (by show d.val < 127; omega))).trans ?_
      refine (View.read_writes_cons_unit_of_mem VO0_1 _ (off := ![0, 0, 0, 0, 0]) (off' := ![0, 0, 0, 0, 0])
        (size := ![1, 1, 127, 128, 128]) _ _ _ (ix5 (0 : Fin 1) (⟨0, hj⟩ : Fin 2) d h w)
        (ix5 (0 : Fin 1) (0 : Fin 1) (⟨d.val, by omega⟩ : Fin 127) h w) rfl
        (forall_fin5 (by show (0 : Nat) = 0 + 0; rfl) (by show (0 : Nat) = 0 + 0; rfl)
          (by show d.val = 0 + d.val; omega) (by show h.val = 0 + h.val; omega)
          (by show w.val = 0 + w.val; omega))).trans ?_
      rw [pay11_apply]
      exact (bordered_of_inside x0 0 _ _ _ _ (by show 0 + 1 * 0 = 0; rfl)
        (by show 1 + 1 * d.val + 1 = 2 + d.val; omega) (by show 0 + 1 * h.val + 1 = 1 + h.val; omega)
        (by show 0 + 1 * w.val + 1 = 1 + w.val; omega)).symm

end Cert.KernelIdeal.PointValue

end
-- ==== Proof.WholeArray.lean ====
/-
  The kernel's 96-channel array after the run, and the result the program returns.

  The grid has 48 points, point t = 3 c + κ. Its input block is channel c = t / 3 of the argument, fetched whole. Its
  output block is the pair of channels 2 t and 2 t + 1 of the 96-channel array, and it holds the two taps 2 κ and
  2 κ + 1 of the input cube: since 2 t + j = 6 c + (2 κ + j), that is channel 6 c + k holding tap k of channel c, which
  is what the stencil asks of the whole array. Every channel is in the pair of exactly the point ch / 2, so the pairs
  cover the array and it ends at the stencil of the argument. The one host operation after the region lays the 96
  channels out as [6, 16]: it is applied to that array.
-/
import proofs.«426737_j25821343383820_3_alg».proof.Proof.Gen.KernelIdeal.Frame
import proofs.«426737_j25821343383820_3_alg».proof.Proof.PointStores
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.PointValue Cert.Stencil
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The argument array on a core, and a point's input block, at their literal types. -/
abbrev xin (c : Dev nD) : (Cube 16).Idx → EReal := m ((c : Thread nD τ).loc main_arg0)
abbrev xblk (c : Dev nD) (t : Fin cfg0.N) : Vec Ideal S1x1x128x128x128 .f32 := iblk m c 0 t

/-- The printed index maps over the grid: the input's block index is (0, t / 3, 0, 0, 0), the output's (0, t, 0, 0, 0). -/
theorem idx_facts : ∀ t : Fin cfg0.N,
    win0_0.index t (0 : Fin 5) = 0 ∧ win0_0.index t (1 : Fin 5) = t.val / 3 ∧ win0_0.index t (2 : Fin 5) = 0
    ∧ win0_0.index t (3 : Fin 5) = 0 ∧ win0_0.index t (4 : Fin 5) = 0
    ∧ win0_1.index t (0 : Fin 5) = 0 ∧ win0_1.index t (1 : Fin 5) = t.val ∧ win0_1.index t (2 : Fin 5) = 0
    ∧ win0_1.index t (3 : Fin 5) = 0 ∧ win0_1.index t (4 : Fin 5) = 0 :=
  (by decide +kernel : ∀ t : Fin grid0.N, _)

theorem t_lt (t : Fin cfg0.N) : t.val < 48 := lt_of_lt_of_eq t.isLt (show cfg0.N = 48 from N_0)

/-- A point's input block is channel t / 3 of the argument. -/
theorem xblk_apply (c : Dev nD) (t : Fin cfg0.N) (p q r : Fin 128) :
    xblk m c t (ix5 (0 : Fin 1) (⟨0, Nat.one_pos⟩ : Fin 1) p q r)
      = xin m c (ix5 (0 : Fin 1) (⟨t.val / 3, by have := t_lt t; omega⟩ : Fin 16) p q r) := by
  obtain ⟨a0, a1, a2, a3, a4, -⟩ := idx_facts t
  show V m c main_arg0 (((cfg0.win 0).blk t).view.emb (ix5 (0 : Fin 1) (⟨0, Nat.one_pos⟩ : Fin 1) p q r)) = _
  rw [V_main_arg0]
  refine congrArg _ (funext (forall_fin5 (Fin.ext ?_) (Fin.ext ?_) (Fin.ext ?_) (Fin.ext ?_) (Fin.ext ?_)))
  · show win0_0.index t (0 : Fin 5) * 1 + 1 * 0 = 0; omega
  · show win0_0.index t (1 : Fin 5) * 1 + 1 * 0 = t.val / 3; omega
  · show win0_0.index t (2 : Fin 5) * 128 + 1 * p.val = p.val; omega
  · show win0_0.index t (3 : Fin 5) * 128 + 1 * q.val = q.val; omega
  · show win0_0.index t (4 : Fin 5) * 128 + 1 * r.val = r.val; omega

/-- What point t leaves in its output block, cube j at the cell (d, h, w): tap 2 (t % 3) + j of its input cube. -/
theorem left_apply (c : Dev nD) (t : Fin cfg0.N) (j : Fin 2) (d h w : Fin 128) :
    outsAt0 m c t.val t.isLt (ix5 (0 : Fin 1) j d h w)
      = tap (n := 1) (xblk m c t) 0 (2 * (t.val % 3) + j.val) d.val h.val w.val := by
  have hN := t_lt t
  by_cases h0 : t.val % 3 = 0
  · have h1 : ¬t.val % 3 = 1 := by omega
    have h2 : ¬t.val % 3 = 2 := by omega
    have e : 2 * (t.val % 3) + j.val = j.val := by omega
    rw [outsAt0_A m c t h0 h1 h2, e]
    exact pointA c (grid0.coords t) (ms0_0 t) (hs0_0 t) (ms0_1 t) (hs0_1 t) ((hcond0_0 t).mpr h0)
      (fun h => h1 ((hcond0_1 t).mp h)) (fun h => h2 ((hcond0_2 t).mp h)) (iblk m c 0 t) j d h w
  · by_cases h1 : t.val % 3 = 1
    · have h2 : ¬t.val % 3 = 2 := by omega
      have e : 2 * (t.val % 3) + j.val = 2 + j.val := by omega
      rw [outsAt0_B m c t h0 h1 h2, e]
      exact pointB c (grid0.coords t) (ms0_0 t) (hs0_0 t) (ms0_1 t) (hs0_1 t) (fun h => h0 ((hcond0_0 t).mp h))
        ((hcond0_1 t).mpr h1) (fun h => h2 ((hcond0_2 t).mp h)) (iblk m c 0 t) j d h w
    · have h2 : t.val % 3 = 2 := by omega
      have e : 2 * (t.val % 3) + j.val = 4 + j.val := by omega
      rw [outsAt0_C m c t h0 h1 h2, e]
      exact pointC c (grid0.coords t) (ms0_0 t) (hs0_0 t) (ms0_1 t) (hs0_1 t) (fun h => h0 ((hcond0_0 t).mp h))
        (fun h => h1 ((hcond0_1 t).mp h)) ((hcond0_2 t).mpr h2) (iblk m c 0 t) j d h w

/-- The same in terms of the argument: tap 2 (t % 3) + j of channel t / 3. -/
theorem left_apply_arg (c : Dev nD) (t : Fin cfg0.N) (j : Fin 2) (d h w : Fin 128) :
    outsAt0 m c t.val t.isLt (ix5 (0 : Fin 1) j d h w)
      = tap (xin m c) (t.val / 3) (2 * (t.val % 3) + j.val) d.val h.val w.val := by
  have hN := t_lt t
  rw [left_apply]
  exact bordered_congr (xin m c) (xblk m c t) (t.val / 3) 0 (by omega) Nat.one_pos
    (fun p q r => xblk_apply m c t p q r) _ _ _

/-- WHAT POINT t WRITES BACK is its block of the stencil of the argument. -/
theorem flushed_eq (c : Dev nD) (t : Fin cfg0.N) :
    (dats m 0 c).flushed 1 t = ((cfg0.win 1).blk t).view.read (Elt Ideal) (taps96 (xin m c)) := by
  have hN := t_lt t
  obtain ⟨-, -, -, -, -, b0, b1, b2, b3, b4⟩ := idx_facts t
  show (cfg0.win 1).cut (grid0.coords t) ((dats m 0 c).after 1 t) = _
  rw [after0_1]
  funext y
  show outsAt0 m c t.val t.isLt y = taps96 (xin m c) (((cfg0.win 1).blk t).view.emb y)
  have key : ∀ y' : S1x2x128x128x128.Idx, outsAt0 m c t.val t.isLt y'
      = taps96 (xin m c) (((cfg0.win 1).blk t).view.emb y') := by
    intro y'
    obtain ⟨a, j, d, h, w, rfl⟩ : ∃ (a : Fin 1) (j : Fin 2) (d h w : Fin 128), y' = ix5 a j d h w :=
      ⟨y' 0, y' 1, y' 2, y' 3, y' 4, eq_ix5 y'⟩
    obtain rfl : a = 0 := Fin.ext (by have := a.isLt; omega)
    rw [left_apply_arg]
    have hj : j.val < 2 := j.isLt
    show _ = tap (xin m c) ((win0_1.index t (1 : Fin 5) * 2 + 1 * j.val) / 6) ((win0_1.index t (1 : Fin 5) * 2 + 1 * j.val) % 6)
      (win0_1.index t (2 : Fin 5) * 128 + 1 * d.val) (win0_1.index t (3 : Fin 5) * 128 + 1 * h.val)
      (win0_1.index t (4 : Fin 5) * 128 + 1 * w.val)
    have e1 : (win0_1.index t (1 : Fin 5) * 2 + 1 * j.val) / 6 = t.val / 3 := by omega
    have e2 : (win0_1.index t (1 : Fin 5) * 2 + 1 * j.val) % 6 = 2 * (t.val % 3) + j.val := by omega
    have e3 : win0_1.index t (2 : Fin 5) * 128 + 1 * d.val = d.val := by omega
    have e4 : win0_1.index t (3 : Fin 5) * 128 + 1 * h.val = h.val := by omega
    have e5 : win0_1.index t (4 : Fin 5) * 128 + 1 * w.val = w.val := by omega
    rw [e1, e2, e3, e4, e5]
  exact key y

/-- An index of the array is in point t's block iff each coordinate is in the block's range on its axis. -/
theorem mem_blk (t : Fin cfg0.N) (i : S1x96x128x128x128.Idx) :
    i ∈ ((cfg0.win 1).blk t).view.set ↔ ∀ a : Fin 5, win0_1.index t a * S1x2x128x128x128.size a ≤ (i a).val
      ∧ (i a).val < win0_1.index t a * S1x2x128x128x128.size a + S1x2x128x128x128.size a := by
  show i ∈ ((View.whole main_v0).slice (win0_1.rect t)).set ↔ _
  rw [View.set_slice_whole, Rect.mem_set_unit]
  exact Iff.rfl

/-- Channel ch is in the pair of point ch / 2. -/
theorem cover (i : S1x96x128x128x128.Idx) :
    ∃ t : Fin cfg0.N, (cfg0.win 1).flush t = true ∧ i ∈ ((cfg0.win 1).blk t).view.set := by
  have i0 : (i 0).val < 1 := (i 0).isLt
  have i1 : (i 1).val < 96 := (i 1).isLt
  have i2 : (i 2).val < 128 := (i 2).isLt
  have i3 : (i 3).val < 128 := (i 3).isLt
  have i4 : (i 4).val < 128 := (i 4).isLt
  have hlt : (i 1).val / 2 < cfg0.N := lt_of_lt_of_eq (by omega : (i 1).val / 2 < 48) (show (48 : Nat) = cfg0.N from N_0.symm)
  refine ⟨⟨(i 1).val / 2, hlt⟩, flush0_1 _, ?_⟩
  rw [mem_blk]
  obtain ⟨-, -, -, -, -, b0, b1, b2, b3, b4⟩ := idx_facts ⟨(i 1).val / 2, hlt⟩
  have b1' : win0_1.index ⟨(i 1).val / 2, hlt⟩ (1 : Fin 5) = (i 1).val / 2 := b1
  refine forall_fin5 ?_ ?_ ?_ ?_ ?_
  · show win0_1.index ⟨(i 1).val / 2, hlt⟩ (0 : Fin 5) * 1 ≤ (i 0).val ∧ (i 0).val < win0_1.index ⟨(i 1).val / 2, hlt⟩ (0 : Fin 5) * 1 + 1
    omega
  · show win0_1.index ⟨(i 1).val / 2, hlt⟩ (1 : Fin 5) * 2 ≤ (i 1).val ∧ (i 1).val < win0_1.index ⟨(i 1).val / 2, hlt⟩ (1 : Fin 5) * 2 + 2
    omega
  · show win0_1.index ⟨(i 1).val / 2, hlt⟩ (2 : Fin 5) * 128 ≤ (i 2).val ∧ (i 2).val < win0_1.index ⟨(i 1).val / 2, hlt⟩ (2 : Fin 5) * 128 + 128
    omega
  · show win0_1.index ⟨(i 1).val / 2, hlt⟩ (3 : Fin 5) * 128 ≤ (i 3).val ∧ (i 3).val < win0_1.index ⟨(i 1).val / 2, hlt⟩ (3 : Fin 5) * 128 + 128
    omega
  · show win0_1.index ⟨(i 1).val / 2, hlt⟩ (4 : Fin 5) * 128 ≤ (i 4).val ∧ (i 4).val < win0_1.index ⟨(i 1).val / 2, hlt⟩ (4 : Fin 5) * 128 + 128
    omega

/-- THE ARRAY after the run: the stencil of the argument. -/
theorem final (c : Dev nD) : (dats m 0 c).arrAt 1 cfg0.N = taps96 (xin m c) :=
  (dats m 0 c).arrAt_eq_of_cover 1 (taps96 (xin m c)) (fun t _ => flushed_eq m c t) cover

/-- The layout of the 96 channels as [6, 16], the program's last operation. -/
def relaid (y : (Cube 96).Idx → EReal) : S1x6x16x128x128x128.Idx → EReal :=
  shapeCast S1x6x16x128x128x128 y Gen.shapeCasts_S1x96x128x128x128_S1x6x16x128x128x128

/-- THE RESULT: what the operation after the region leaves in the result buffer. -/
theorem result_eq (c : Dev nD) :
    Pipeline.afterTail₀ cfgs (dats m) 0 (V0 m) [hostOps1] c main_v1 = relaid (taps96 (xin m c)) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = taps96 (xin m c) :=
    (Pipeline.withArrays_arr spec0 launch0.win.arr_inj c (V0 m c) (fun w => (dats m 0 c).arrAt w cfg0.N) 1).trans
      (final m c)
  rw [hw]
  rfl

/-- THE RUN, read: every weakly fair execution ends with the result buffer at the stencil of the argument laid out
    as [6, 16], and the argument unchanged. -/
theorem run : θ_run defs (onTc (τ := τ) (main (F := Ideal))) ⟨m, fun _ => 0, ρ⟩ (fun r => ∀ c : Dev nD,
      r.2.mem ((c.tc : Thread nD τ).loc main_v1) = relaid (taps96 (xin m c))
      ∧ r.2.mem ((c.tc : Thread nD τ).loc main_arg0) = m ((c.tc : Thread nD τ).loc main_arg0)) :=
  (θ_run defs _ _).mono (fun r h c =>
      ⟨((h c).2 main_v1 (Pipeline.mem_restRefs_of main_v1 rfl (by decide))).trans (result_eq m c),
        ((h c).1 0).trans (((dats m 0 c).arrAt_in 0 rfl _).trans ((A_eq m c 0).trans (V_main_arg0 m c)))⟩)
    (run_main m ρ)

end Cert.KernelIdeal.ArrayValue

end
-- ==== Proof.lean ====
/-
  A depthwise six-neighbour stencil over x : f32[1, 16, 128, 128, 128]: for each channel c and each of the six taps
  k, the result's entry (k', c', d, h, w) — channels numbered 6 c + k and then laid out as [6, 16] — is the
  neighbour of cell (d, h, w) of channel c one step along the last, middle or first spatial axis, forwards or
  backwards, and zero where that neighbour would lie outside the cube.

  The reference pads the array with a border of zeros and takes six shifted windows of the padded array. The kernel
  makes no padded array: over a grid of 16 · 3 points it stores, for a channel and an axis, the channel's cube rolled by
  one along the axis in each direction and overwrites with zeros the edge the roll brought around (for the first spatial
  axis, the cube moved by one plane and a plane of zeros). Both are the same function of x, cell by cell
  (Proof/Border.lean states it once): no arithmetic is done on the values, so nothing is asked of them — the
  precondition is not used — and the two results are equal as extended reals because they are the same entries of x
  or the same zero. The zero is the float word 0 on the kernel's side and an integer 0 converted on the reference's;
  both denote the real 0.

  The reference's stages are read in Proof/RefSide.lean, one grid point's stores in Proof/PointStores.lean (over
  Proof/Roll.lean), the array the points leave and the program's result in Proof/WholeArray.lean. The idealized kernel is
  the kernel's own text read at the ideal values, so the preserves claim has no conjunct.
-/
import proofs.«426737_j25821343383820_3_alg».proof.Defs
import proofs.«426737_j25821343383820_3_alg».proof.Proof.Gen.Kernel
import proofs.«426737_j25821343383820_3_alg».proof.Proof.Gen.Kernel.Skeleton
import proofs.«426737_j25821343383820_3_alg».proof.Proof.Gen.Kernel.Launch
import proofs.«426737_j25821343383820_3_alg».proof.Proof.Gen.Kernel.Points
import proofs.«426737_j25821343383820_3_alg».proof.Proof.Gen.Kernel.Frame
import proofs.«426737_j25821343383820_3_alg».proof.Proof.Gen.KernelIdeal
import proofs.«426737_j25821343383820_3_alg».proof.Proof.Gen.KernelIdeal.Skeleton
import proofs.«426737_j25821343383820_3_alg».proof.Proof.Gen.KernelIdeal.Launch
import proofs.«426737_j25821343383820_3_alg».proof.Proof.Gen.KernelIdeal.Points
import proofs.«426737_j25821343383820_3_alg».proof.Proof.Gen.KernelIdeal.Frame
import proofs.«426737_j25821343383820_3_alg».proof.Proof.Gen.ReferenceIdeal
import proofs.«426737_j25821343383820_3_alg».proof.Proof.Gen.ReferenceIdeal.Run
import proofs.«426737_j25821343383820_3_alg».proof.Proof.Gen.ReferenceIdeal.Read
import proofs.«426737_j25821343383820_3_alg».proof.Proof.Gen.Pre_finite_inputs
import proofs.«426737_j25821343383820_3_alg».proof.Proof.RefSide
import proofs.«426737_j25821343383820_3_alg».proof.Proof.WholeArray
import Idealize.ShloMosaic.Adequacy
import Idealize.ShloMosaic.Init

noncomputable section

namespace Cert.Proof

open Idealize.ShloMosaic Idealize.SL.Sem Cert.Stencil

/-- The three programs run, fault-free, and leave the argument as it was: the kernels' frames are generated whole; the
    reference has no kernel, and its frame is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the result buffer at the stencil of the argument, its 96 channels laid
    out as [6, 16]: the kernel's pairs of channels cover the 96-channel array with it, the reference's join merged
    is it, and the last operation of both is the same layout of that array. -/
theorem algebraic : Cert.algebraic_KernelIdeal_ReferenceIdeal := by
  intro m ρ m' ρ' _ hagree
  refine ⟨fun c => Cert.KernelIdeal.ArrayValue.relaid (taps96 (Cert.KernelIdeal.ArrayValue.xin m c)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  unfold Cert.ReferenceIdeal.Read.val_main_v15
  rw [Cert.ReferenceIdeal.RefValue.merged_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
